-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S64x64 : Shape := ⟨2, ![64, 64]⟩
abbrev S3x64x64 : Shape := ⟨3, ![3, 64, 64]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S1048576x64 .f32) (main_arg1 : FVec F S64x64 .f32) (main_arg2 : FVec F S3x64x64 .f32) (main_arg3 : FVec F S64x64 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S3x64x64 .f32 := Host.absf main_arg2
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S1048576x64 : Shape := ⟨2, ![1048576, 64]⟩
abbrev S64x64 : Shape := ⟨2, ![64, 64]⟩
abbrev S3x64x64 : Shape := ⟨3, ![3, 64, 64]⟩
abbrev S8192x64 : Shape := ⟨2, ![8192, 64]⟩
abbrev S1x64x64 : Shape := ⟨3, ![1, 64, 64]⟩

abbrev nBuf : Space → Nat
  | .hbm => 8
  | .vmem => 7
  | .smem => 0
  | _ => 0

abbrev bufTy : (tb : Table) → Fin (tcTables nBuf tb) → BufTy
  | .hbm, ⟨0, _⟩ => ⟨S1048576x64, .f32⟩
  | .hbm, ⟨1, _⟩ => ⟨S64x64, .f32⟩
  | .hbm, ⟨2, _⟩ => ⟨S3x64x64, .f32⟩
  | .hbm, ⟨3, _⟩ => ⟨S64x64, .f32⟩
  | .hbm, ⟨4, _⟩ => ⟨S64x64, .f32⟩
  | .hbm, ⟨5, _⟩ => ⟨S3x64x64, .f32⟩
  | .hbm, ⟨6, _⟩ => ⟨S64x64, .f32⟩
  | .hbm, ⟨7, _⟩ => ⟨S1048576x64, .f32⟩
  | .local _ .vmem, ⟨0, _⟩ => ⟨S8192x64, .f32⟩
  | .local _ .vmem, ⟨1, _⟩ => ⟨S8192x64, .f32⟩
  | .local _ .vmem, ⟨2, _⟩ => ⟨S64x64, .f32⟩
  | .local _ .vmem, ⟨3, _⟩ => ⟨S3x64x64, .f32⟩
  | .local _ .vmem, ⟨4, _⟩ => ⟨S64x64, .f32⟩
  | .local _ .vmem, ⟨5, _⟩ => ⟨S8192x64, .f32⟩
  | .local _ .vmem, ⟨6, _⟩ => ⟨S8192x64, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S64x64_S64x64_1_0 : S64x64.Transposes [1, 0] S64x64
  transposes_S3x64x64_S3x64x64_0_2_1 : S3x64x64.Transposes [0, 2, 1] S3x64x64
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64x64_S1x64x64_1_0_0 : ∀ a, (![1, 0, 0] : Fin 3 → Nat) a + S1x64x64.size a ≤ S3x64x64.size a
  inb_S3x64x64_S1x64x64_2_0_0 : ∀ a, (![2, 0, 0] : Fin 3 → Nat) a + S1x64x64.size a ≤ S3x64x64.size a
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1048576x64.size a
  hwx0_0 : ∀ i : grid0.Coords, EltTy.bits .f32 = 32 ∨ (Rect.block (s := S1048576x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64x64.size a ≤ S3x64x64.size a
  hwx0_2 : ∀ i : grid0.Coords, EltTy.bits .f32 = 32 ∨ (Rect.block (s := S3x64x64) S3x64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x64.size a ≤ S1048576x64.size a
  hwx0_4 : ∀ i : grid0.Coords, EltTy.bits .f32 = 32 ∨ (Rect.block (s := S1048576x64) S8192x64.size (cc0_transform_4 i) (hinb0_4 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S8192x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S64x64 : Shape := ⟨2, ![64, 64]⟩
abbrev S3x64x64 : Shape := ⟨3, ![3, 64, 64]⟩
abbrev S_ : Shape := ⟨0, ![]⟩
abbrev S1x64x64 : Shape := ⟨3, ![1, 64, 64]⟩

abbrev nBuf : Space → Nat
  | .hbm => 27
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S64x64, .f32⟩
  | .hbm, ⟨2, _⟩ => ⟨S3x64x64, .f32⟩
  | .hbm, ⟨3, _⟩ => ⟨S64x64, .f32⟩
  | .hbm, ⟨4, _⟩ => ⟨S1048576x64, .f32⟩
  | .hbm, ⟨5, _⟩ => ⟨S_, .f32⟩
  | .hbm, ⟨6, _⟩ => ⟨S1048576x64, .f32⟩
  | .hbm, ⟨7, _⟩ => ⟨S1048576x64, .f32⟩
  | .hbm, ⟨8, _⟩ => ⟨S1x64x64, .f32⟩
  | .hbm, ⟨9, _⟩ => ⟨S64x64, .f32⟩
  | .hbm, ⟨10, _⟩ => ⟨S1048576x64, .f32⟩
  | .hbm, ⟨11, _⟩ => ⟨S_, .f32⟩
  | .hbm, ⟨12, _⟩ => ⟨S1048576x64, .f32⟩
  | .hbm, ⟨13, _⟩ => ⟨S1048576x64, .f32⟩
  | .hbm, ⟨14, _⟩ => ⟨S1x64x64, .f32⟩
  | .hbm, ⟨15, _⟩ => ⟨S64x64, .f32⟩
  | .hbm, ⟨16, _⟩ => ⟨S1048576x64, .f32⟩
  | .hbm, ⟨17, _⟩ => ⟨S_, .f32⟩
  | .hbm, ⟨18, _⟩ => ⟨S1048576x64, .f32⟩
  | .hbm, ⟨19, _⟩ => ⟨S1048576x64, .f32⟩
  | .hbm, ⟨20, _⟩ => ⟨S1x64x64, .f32⟩
  | .hbm, ⟨21, _⟩ => ⟨S64x64, .f32⟩
  | .hbm, ⟨22, _⟩ => ⟨S1048576x64, .f32⟩
  | .hbm, ⟨23, _⟩ => ⟨S_, .f32⟩
  | .hbm, ⟨24, _⟩ => ⟨S1048576x64, .f32⟩
  | .hbm, ⟨25, _⟩ => ⟨S1048576x64, .f32⟩
  | .hbm, ⟨26, _⟩ => ⟨S1048576x64, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call1_cst : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call2_cst : Ref sig .tc := ⟨.hbm, 17, rfl⟩
abbrev main_call2_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call3_cst : Ref sig .tc := ⟨.hbm, 23, rfl⟩
abbrev main_call3_v0 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]

class Facts₀ : Prop where
  bcast_S_S1048576x64 : S_.BroadcastsInDim S1048576x64 (![] : Fin 0 → Fin S1048576x64.rank)
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  dot_S1048576x64_S64x64_S1048576x64_1_1_0_0_n_n_wf : DotDims.WF S1048576x64 S64x64 S1048576x64 [1] [1] [0] [0] [] []

variable [Facts₀]

def dot_S1048576x64_S64x64_S1048576x64_1_1_0_0_n_n : DotDims S1048576x64 S64x64 S1048576x64 where
  lhsContracting := [1]
  rhsContracting := [1]
  lhsNonContracting := [0]
  rhsNonContracting := [0]
  lhsBatch := []
  rhsBatch := []
  wf := dot_S1048576x64_S64x64_S1048576x64_1_1_0_0_n_n_wf

class Facts : Prop extends Facts₀ where

variable [Facts]
-- ==== Proof.MlpSpec.lean ====
/-
  The function both programs compute, row by row.

  A dense layer without bias sends a row `h` of 64 numbers to the row whose entry `o` is the dot product
  `∑ k, h k * W o k` of `h` with row `o` of the weight matrix (weights stored out-feature-major). A hidden
  layer clamps that at zero from below. The network is four hidden layers (the input matrix, then the three
  hidden matrices) followed by one plain dense layer with the output matrix. Every output row depends on the
  input row with the same number and on nothing else of the batch, which is what lets a batch tile be computed
  on its own.

  Everything here is over the extended reals; sums and products there are commutative and associative, and
  nothing below needs more than that (no distributivity, so no finiteness of the inputs).
-/
import Idealize.ShloMosaic.PureOps.Ideal
import Idealize.ShloMosaic.PureOps.Ideal.Laws
import Idealize.ShloMosaic.Lib.ValueIdx

noncomputable section

namespace Cert.Mlp

open Idealize.ShloMosaic Idealize.ShloMosaic.ValueIdx

/-- The batch of rows, a square weight matrix, and the stack of three hidden matrices. -/
abbrev SBatch : Shape := ⟨2, ![1048576, 64]⟩
abbrev SMat : Shape := ⟨2, ![64, 64]⟩
abbrev SStack : Shape := ⟨3, ![3, 64, 64]⟩

/-- One dense layer on a row: entry `o` is the row's dot product with row `o` of `W`. -/
def lin (W : Fin 64 → Fin 64 → EReal) (h : Fin 64 → EReal) (o : Fin 64) : EReal :=
  ∑ k : Fin 64, h k * W o k

/-- The rectifier on the extended reals. -/
def relu (a : EReal) : EReal := max a 0

/-- A hidden layer: the dense layer, rectified entry by entry. -/
def hidden (W : Fin 64 → Fin 64 → EReal) (h : Fin 64 → EReal) : Fin 64 → EReal :=
  fun o => relu (lin W h o)

/-- The network on one row. -/
def mlpRow (Win : Fin 64 → Fin 64 → EReal) (Wh : Fin 3 → Fin 64 → Fin 64 → EReal)
    (Wout : Fin 64 → Fin 64 → EReal) (x : Fin 64 → EReal) : Fin 64 → EReal :=
  lin Wout (hidden (Wh 2) (hidden (Wh 1) (hidden (Wh 0) (hidden Win x))))

/-- A weight array as a matrix, entry (out-feature, in-feature). -/
def mat (w : SMat.Idx → EReal) : Fin 64 → Fin 64 → EReal := fun o k => w (ix2 o k)

/-- Layer `l` of the stack as a matrix. -/
def matOf (w : SStack.Idx → EReal) (l : Fin 3) : Fin 64 → Fin 64 → EReal := fun o k => w (ix3 l o k)

/-- Row `b` of the batch. -/
def row (x : SBatch.Idx → EReal) (b : Fin 1048576) : Fin 64 → EReal := fun k => x (ix2 b k)

/-- The whole result array: entry (b, o) is entry `o` of the network applied to row `b`. -/
def G (x : SBatch.Idx → EReal) (wIn : SMat.Idx → EReal) (wH : SStack.Idx → EReal) (wOut : SMat.Idx → EReal) :
    SBatch.Idx → EReal :=
  fun i => mlpRow (mat wIn) (matOf wH) (mat wOut) (row x (i 0)) (i 1)

/-- The same network when every weight matrix is handed over transposed (in-feature-major): the dense layer
    then reads entry (k, o) where the untransposed one reads (o, k). -/
def matT (w : SMat.Idx → EReal) : Fin 64 → Fin 64 → EReal := fun o k => w (ix2 k o)
def matOfT (w : SStack.Idx → EReal) (l : Fin 3) : Fin 64 → Fin 64 → EReal := fun o k => w (ix3 l k o)

def GT (x : SBatch.Idx → EReal) (wInT : SMat.Idx → EReal) (wHT : SStack.Idx → EReal) (wOutT : SMat.Idx → EReal) :
    SBatch.Idx → EReal :=
  fun i => mlpRow (matT wInT) (matOfT wHT) (matT wOutT) (row x (i 0)) (i 1)

/-- Transposed weights, read transposed, are the weights: if `wInT`, `wHT`, `wOutT` hold the transposes
    entry by entry, the two forms of the network agree. -/
theorem GT_eq_G (x : SBatch.Idx → EReal) (wIn wInT : SMat.Idx → EReal) (wH wHT : SStack.Idx → EReal)
    (wOut wOutT : SMat.Idx → EReal)
    (hIn : ∀ o k : Fin 64, wInT (ix2 k o) = wIn (ix2 o k))
    (hH : ∀ (l : Fin 3) (o k : Fin 64), wHT (ix3 l k o) = wH (ix3 l o k))
    (hOut : ∀ o k : Fin 64, wOutT (ix2 k o) = wOut (ix2 o k)) :
    GT x wInT wHT wOutT = G x wIn wH wOut := by
  have e1 : matT wInT = mat wIn := funext fun o => funext fun k => hIn o k
  have e2 : matOfT wHT = matOf wH := funext fun l => funext fun o => funext fun k => hH l o k
  have e3 : matT wOutT = mat wOut := funext fun o => funext fun k => hOut o k
  unfold GT G
  rw [e1, e2, e3]

end Cert.Mlp

end
-- ==== Proof.RefIsMlp.lean ====
/-
  The reference computes the network row by row.

  Each of the reference's five contractions pairs axis 1 of its left operand with axis 1 of its right operand,
  so entry (b, o) of the product is the dot product of row b on the left with row o of the weights: the dense
  layer of the specification on row b. The rectifier between two contractions is a maximum with the zero
  constant, entry by entry. The three hidden matrices are slices of the stack along its leading axis,
  reshaped from [1, 64, 64] to [64, 64], which moves no entry.
-/
import proofs.«173376_j59390807769684_1_alg».proof.Proof.Gen.ReferenceIdeal.Read
import proofs.«173376_j59390807769684_1_alg».proof.Proof.MlpSpec

noncomputable section

namespace Cert.ReferenceIdeal.IsMlp

open Cert.ReferenceIdeal Cert.ReferenceIdeal.Read Idealize.ShloMosaic Idealize.ShloMosaic.ValueIdx Cert.Mlp

/-- A contraction of rows against rows, read at (b, o): the dense layer on row b. The two index functions are
    the ones a contraction's read-at-an-index lemma produces; all it matters of them is that the left one keeps
    the row and the right one takes the output coordinate for its row. -/
theorem dot_rows (y : S1048576x64.Idx → EReal) (w : S64x64.Idx → EReal) (b : Fin 1048576) (o : Fin 64)
    (li : Fin 64 → S1048576x64.Idx) (ri : Fin 64 → S64x64.Idx)
    (hl : ∀ k, li k = ix2 b k) (hr : ∀ k, ri k = ix2 o k) :
    ∑ k : Fin 64, y (li k) * w (ri k) = lin (mat w) (row y b) o := by
  unfold lin mat row
  exact Finset.sum_congr rfl fun k _ => by rw [hl k, hr k]

theorem lidx_eq (b : Fin 1048576) (o k : Fin 64) : lidx_main_v0 (ix2 b o) k = ix2 b k :=
  funext fun a => by match a with | ⟨0, _⟩ => rfl | ⟨1, _⟩ => rfl
theorem ridx_eq (b : Fin 1048576) (o k : Fin 64) : ridx_main_v0 (ix2 b o) k = ix2 o k :=
  funext fun a => by match a with | ⟨0, _⟩ => rfl | ⟨1, _⟩ => rfl

/-- The zero the rectifier compares with. -/
theorem zero_cst (i : S1048576x64.Idx) : val_main_call0_v0 (F := Ideal) i = 0 := by
  rw [val_main_call0_v0_apply, val_main_call0_cst_apply]
  exact Ideal.ofBits_zero_f32

/-- Slice `l` of the stack, reshaped to a matrix, is layer `l` of the stack. -/
theorem mat_v3 (x2 : S3x64x64.Idx → EReal) : mat (val_main_v3 (F := Ideal) x2) = matOf x2 0 := by
  funext o k
  show val_main_v3 (F := Ideal) x2 (ix2 o k) = x2 (ix3 0 o k)
  rw [val_main_v3_apply, val_main_v2_apply]
  congr 1
  funext a
  apply Fin.ext
  have ho : o.val < 64 := o.isLt
  have hk : k.val < 64 := k.isLt
  match a with
  | ⟨0, _⟩ => rfl
  | ⟨1, _⟩ => show (o.val * 64 + k.val) / 64 % 64 = o.val; omega
  | ⟨2, _⟩ => show (o.val * 64 + k.val) % 64 = k.val; omega

theorem mat_v7 (x2 : S3x64x64.Idx → EReal) : mat (val_main_v7 (F := Ideal) x2) = matOf x2 1 := by
  funext o k
  show val_main_v7 (F := Ideal) x2 (ix2 o k) = x2 (ix3 1 o k)
  rw [val_main_v7_apply, val_main_v6_apply]
  congr 1
  funext a
  apply Fin.ext
  have ho : o.val < 64 := o.isLt
  have hk : k.val < 64 := k.isLt
  match a with
  | ⟨0, _⟩ => rfl
  | ⟨1, _⟩ => show (o.val * 64 + k.val) / 64 % 64 = o.val; omega
  | ⟨2, _⟩ => show (o.val * 64 + k.val) % 64 = k.val; omega

theorem mat_v11 (x2 : S3x64x64.Idx → EReal) : mat (val_main_v11 (F := Ideal) x2) = matOf x2 2 := by
  funext o k
  show val_main_v11 (F := Ideal) x2 (ix2 o k) = x2 (ix3 2 o k)
  rw [val_main_v11_apply, val_main_v10_apply]
  congr 1
  funext a
  apply Fin.ext
  have ho : o.val < 64 := o.isLt
  have hk : k.val < 64 := k.isLt
  match a with
  | ⟨0, _⟩ => rfl
  | ⟨1, _⟩ => show (o.val * 64 + k.val) / 64 % 64 = o.val; omega
  | ⟨2, _⟩ => show (o.val * 64 + k.val) % 64 = k.val; omega

/-- After the first hidden layer, row b is the hidden layer of the input matrix on row b of the batch. -/
theorem row_v1 (x0 : S1048576x64.Idx → EReal) (x1 : S64x64.Idx → EReal) (b : Fin 1048576) :
    row (val_main_v1 (F := Ideal) x0 x1) b = hidden (mat x1) (row x0 b) := by
  funext o
  show val_main_v1 (F := Ideal) x0 x1 (ix2 b o) = relu (lin (mat x1) (row x0 b) o)
  rw [val_main_v1_apply, val_main_v0_apply, zero_cst,
    dot_rows x0 x1 b o _ _ (lidx_eq b o) (ridx_eq b o)]
  rfl

theorem row_v5 (x0 : S1048576x64.Idx → EReal) (x1 : S64x64.Idx → EReal) (x2 : S3x64x64.Idx → EReal) (b : Fin 1048576) :
    row (val_main_v5 (F := Ideal) x0 x1 x2) b = hidden (matOf x2 0) (hidden (mat x1) (row x0 b)) := by
  funext o
  show val_main_v5 (F := Ideal) x0 x1 x2 (ix2 b o) = relu (lin (matOf x2 0) (hidden (mat x1) (row x0 b)) o)
  rw [val_main_v5_apply, val_main_v4_apply, show val_main_call1_v0 (F := Ideal) (ix2 b o) = 0 from zero_cst _,
    dot_rows _ _ b o _ _ (lidx_eq b o) (ridx_eq b o), mat_v3]
  show max (lin (matOf x2 0) (row (val_main_v1 (F := Ideal) x0 x1) b) o) 0 = _
  rw [row_v1]
  rfl

theorem row_v9 (x0 : S1048576x64.Idx → EReal) (x1 : S64x64.Idx → EReal) (x2 : S3x64x64.Idx → EReal) (b : Fin 1048576) :
    row (val_main_v9 (F := Ideal) x0 x1 x2) b
      = hidden (matOf x2 1) (hidden (matOf x2 0) (hidden (mat x1) (row x0 b))) := by
  funext o
  show val_main_v9 (F := Ideal) x0 x1 x2 (ix2 b o) = relu (lin (matOf x2 1) _ o)
  rw [val_main_v9_apply, val_main_v8_apply, show val_main_call2_v0 (F := Ideal) (ix2 b o) = 0 from zero_cst _,
    dot_rows _ _ b o _ _ (lidx_eq b o) (ridx_eq b o), mat_v7]
  show max (lin (matOf x2 1) (row (val_main_v5 (F := Ideal) x0 x1 x2) b) o) 0 = _
  rw [row_v5]
  rfl

theorem row_v13 (x0 : S1048576x64.Idx → EReal) (x1 : S64x64.Idx → EReal) (x2 : S3x64x64.Idx → EReal) (b : Fin 1048576) :
    row (val_main_v13 (F := Ideal) x0 x1 x2) b
      = hidden (matOf x2 2) (hidden (matOf x2 1) (hidden (matOf x2 0) (hidden (mat x1) (row x0 b)))) := by
  funext o
  show val_main_v13 (F := Ideal) x0 x1 x2 (ix2 b o) = relu (lin (matOf x2 2) _ o)
  rw [val_main_v13_apply, val_main_v12_apply, show val_main_call3_v0 (F := Ideal) (ix2 b o) = 0 from zero_cst _,
    dot_rows _ _ b o _ _ (lidx_eq b o) (ridx_eq b o), mat_v11]
  show max (lin (matOf x2 2) (row (val_main_v9 (F := Ideal) x0 x1 x2) b) o) 0 = _
  rw [row_v9]
  rfl

/-- The reference's result array is the network applied to every row. -/
theorem result_eq (x0 : S1048576x64.Idx → EReal) (x1 : S64x64.Idx → EReal) (x2 : S3x64x64.Idx → EReal)
    (x3 : S64x64.Idx → EReal) :
    val_main_v14 (F := Ideal) x0 x1 x2 x3 = G x0 x1 x2 x3 := by
  funext i
  obtain ⟨b, o, rfl⟩ : ∃ (b : Fin 1048576) (o : Fin 64), i = ix2 b o := ⟨i 0, i 1, eq_ix2 i⟩
  rw [val_main_v14_apply, dot_rows _ _ b o _ _ (lidx_eq b o) (ridx_eq b o), row_v13]
  rfl

end Cert.ReferenceIdeal.IsMlp

end
-- ==== Proof.KernelRow.lean ====
/-
  The kernel's body computes the network on every row of its tile.

  The body loads a tile of 8192 rows and the three weight operands whole, and does five matrix products on the
  tile, each into a zero accumulator, with a maximum against zero after each of the first four. The weights reach
  the body already transposed (entry (k, o) of an operand is weight (o, k)), so a product contracts axis 1 of the
  tile with axis 0 of the weights: entry (p, q) is the dot product of row p of the tile with column q of the
  operand, the specification's dense layer read through the transposed matrix. The narrowing of both factors
  before a product is no change of value here, nor is the cast of a [64, 64] block to its own shape; the cast
  of a [1, 64, 64] slice of the stack to [64, 64] drops the leading unit axis.
-/
import proofs.«173376_j59390807769684_1_alg».proof.Proof.Gen.KernelIdeal.Skeleton
import proofs.«173376_j59390807769684_1_alg».proof.Proof.MlpSpec
import Idealize.ShloMosaic.Lib.Pipeline.Value
import Idealize.ShloMosaic.Lib.ValueIdx
import Idealize.ShloMosaic.PureOps.Ideal.Laws

noncomputable section

namespace Cert.KernelIdeal.Row

open Cert.KernelIdeal Cert.KernelIdeal.Gen Idealize.ShloMosaic Idealize.ShloMosaic.ValueIdx Cert.Mlp

/-! ## A product of a tile with a transposed weight operand, read at an entry -/

theorem lhs_axis0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
theorem lhs_axis1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
theorem rhs_axis0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
theorem rhs_axis1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- Entry (p, q) of the product into a zero accumulator: row p of the tile against column q of the operand. -/
theorem matmul_at {φ₁ φ₂ : FTy} (l : FVec Ideal S8192x64 φ₁) (r : FVec Ideal S64x64 φ₂) (p : Fin 8192) (q : Fin 64) :
    matmul dot_S8192x64_S64x64_S8192x64_1_0_0_1_n_n none l r (constant (F := Ideal) S8192x64 .f32 0x00000000#32) (ix2 p q)
      = ∑ k : Fin 64, l (ix2 p k) * r (ix2 k q) := by
  show FloatOps.matmul dot_S8192x64_S64x64_S8192x64_1_0_0_1_n_n none l r (constant (F := Ideal) S8192x64 .f32 0x00000000#32) (ix2 p q) = _
  rw [Ideal.matmul_constant_zero_apply, ← Equiv.sum_comp (ValueIdx.contrEquiv1 dot_S8192x64_S64x64_S8192x64_1_0_0_1_n_n 64 rfl rfl).symm]
  refine Finset.sum_congr rfl fun k _ => ?_
  have hk := ValueIdx.contrEquiv1_symm_val dot_S8192x64_S64x64_S8192x64_1_0_0_1_n_n 64 rfl rfl k
  have el : dot_S8192x64_S64x64_S8192x64_1_0_0_1_n_n.lhsIdx (ix2 p q) ((ValueIdx.contrEquiv1 dot_S8192x64_S64x64_S8192x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S8192x64_S64x64_S8192x64_1_0_0_1_n_n.rhsIdx (ix2 p q) ((ValueIdx.contrEquiv1 dot_S8192x64_S64x64_S8192x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-! ## The layers on a tile -/

/-- The plain dense layer on a tile: both factors narrowed, multiplied into zeros. -/
def denseTile (h : FVec Ideal S8192x64 .f32) (w : FVec Ideal S64x64 .f32) : FVec Ideal S8192x64 .f32 :=
  matmul dot_S8192x64_S64x64_S8192x64_1_0_0_1_n_n none (truncf .bf16 h bitsLt_bf16_f32) (truncf .bf16 w bitsLt_bf16_f32)
    (constant (F := Ideal) S8192x64 .f32 0x00000000#32)

/-- A hidden layer on a tile: the dense layer, then the maximum with a tile of zeros. -/
def hiddenTile (h : FVec Ideal S8192x64 .f32) (w : FVec Ideal S64x64 .f32) : FVec Ideal S8192x64 .f32 :=
  maximumf (denseTile h w) (broadcast S8192x64 (Scalar.ofBits (F := Ideal) .f32 0x00000000#32))

/-- Row p of the dense layer's tile is the dense layer on row p, through the transposed operand. -/
theorem denseTile_row (h : FVec Ideal S8192x64 .f32) (w : FVec Ideal S64x64 .f32) (p : Fin 8192) (q : Fin 64) :
    denseTile h w (ix2 p q) = lin (matT w) (fun k => h (ix2 p k)) q := by
  unfold denseTile
  rw [matmul_at]
  rfl

/-- Row p of a hidden layer's tile is the hidden layer on row p. -/
theorem hiddenTile_row (h : FVec Ideal S8192x64 .f32) (w : FVec Ideal S64x64 .f32) (p : Fin 8192) :
    (fun q => hiddenTile h w (ix2 p q)) = hidden (matT w) (fun k => h (ix2 p k)) := by
  funext q
  show max (denseTile h w (ix2 p q)) (Ideal.ofBits .f32 0x00000000#32) = relu (lin (matT w) (fun k => h (ix2 p k)) q)
  rw [denseTile_row, Ideal.ofBits_zero_f32]
  rfl

/-- The body's arithmetic is four hidden layers and a dense one on the tile. -/
theorem pay_eq (v0 : Vec Ideal S8192x64 .f32) (v2 : Vec Ideal S64x64 .f32) (v8 v15 v22 : Vec Ideal S1x64x64 .f32)
    (v29 : Vec Ideal S64x64 .f32) :
    k0_pay1 (F := Ideal) v0 v2 v8 v15 v22 v29
      = denseTile (hiddenTile (hiddenTile (hiddenTile (hiddenTile v0
            (shapeCast S64x64 v2 shapeCasts_S64x64_S64x64))
            (shapeCast S64x64 v8 shapeCasts_S1x64x64_S64x64))
            (shapeCast S64x64 v15 shapeCasts_S1x64x64_S64x64))
            (shapeCast S64x64 v22 shapeCasts_S1x64x64_S64x64))
          (shapeCast S64x64 v29 shapeCasts_S64x64_S64x64) := rfl

/-- A [1, 64, 64] slice cast to [64, 64], read at (k, o): the slice at (0, k, o). -/
theorem cast_slice_at (v : Vec Ideal S1x64x64 .f32) (k o : Fin 64) :
    shapeCast S64x64 v shapeCasts_S1x64x64_S64x64 (ix2 k o) = v (ix3 0 k o) := by
  refine shapeCast_apply v shapeCasts_S1x64x64_S64x64 (ix2 k o) (ix3 0 k o) ?_
  rewrite [Shape.rowMajor_val_three, Shape.rowMajor_val_two]
  show (0 * 64 + k.val) * 64 + o.val = k.val * 64 + o.val
  omega

/-- The body's result at (p, q): the network, with each weight operand read transposed, on row p of the tile. -/
theorem pay_at (v0 : Vec Ideal S8192x64 .f32) (v2 : Vec Ideal S64x64 .f32) (v8 v15 v22 : Vec Ideal S1x64x64 .f32)
    (v29 : Vec Ideal S64x64 .f32) (p : Fin 8192) (q : Fin 64) :
    k0_pay1 (F := Ideal) v0 v2 v8 v15 v22 v29 (ix2 p q)
      = lin (matT v29)
          (hidden (fun o k => v22 (ix3 0 k o))
            (hidden (fun o k => v15 (ix3 0 k o))
              (hidden (fun o k => v8 (ix3 0 k o))
                (hidden (matT v2) (fun k => v0 (ix2 p k)))))) q := by
  rw [pay_eq, denseTile_row, hiddenTile_row, hiddenTile_row, hiddenTile_row, hiddenTile_row,
    shapeCast_self, shapeCast_self]
  have e8 : matT (shapeCast S64x64 v8 shapeCasts_S1x64x64_S64x64) = fun o k => v8 (ix3 0 k o) :=
    funext fun o => funext fun k => cast_slice_at v8 k o
  have e15 : matT (shapeCast S64x64 v15 shapeCasts_S1x64x64_S64x64) = fun o k => v15 (ix3 0 k o) :=
    funext fun o => funext fun k => cast_slice_at v15 k o
  have e22 : matT (shapeCast S64x64 v22 shapeCasts_S1x64x64_S64x64) = fun o k => v22 (ix3 0 k o) :=
    funext fun o => funext fun k => cast_slice_at v22 k o
  rw [e8, e15, e22]

end Cert.KernelIdeal.Row

end
-- ==== Proof.KernelWhole.lean ====
/-
  From tiles to the whole result array.

  Grid point t stages rows 8192·t … 8192·t + 8191 of the batch and writes the same rows of the result; the three
  weight operands are staged whole at every point. A row of the result therefore depends on the same row of the
  batch only, and the 128 tiles cover the result array, so the array ends holding the network applied to every
  row, with the weight operands read transposed. The operands ARE the transposes of the weight arguments (the
  three transpositions ahead of the call), so this is the network with the weights as given.
-/
import proofs.«173376_j59390807769684_1_alg».proof.Proof.Gen.KernelIdeal.Value
import proofs.«173376_j59390807769684_1_alg».proof.Proof.KernelRow
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ) (ρ : Dev nD → PrngReg)

theorem zero_off2 : (![0, 0] : Fin 2 → Nat) = fun _ => 0 := funext fun a => by fin_cases a <;> rfl

/-- The block index maps over the grid: the batch and the result move one tile of rows per point, the weight
    operands stay at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The network with transposed operands on tile rows: if a tile's rows are rows of the batch, the operands'
    entries are the arrays' entries, and the stack's three slices are its three layers, then the body's value
    at (p, q) is the array-level function at the row the tile's row p is. -/
theorem tile_is_GT (X : SBatch.Idx → EReal) (W1 : SMat.Idx → EReal) (W2 : SStack.Idx → EReal) (W3 : SMat.Idx → EReal)
    (x0 : S8192x64.Idx → EReal) (x1 : S64x64.Idx → EReal) (a b d : S1x64x64.Idx → EReal) (x3 : S64x64.Idx → EReal)
    (p : Fin 8192) (q : Fin 64) (r : Fin 1048576)
    (h0 : ∀ k : Fin 64, x0 (ix2 p k) = X (ix2 r k))
    (h1 : ∀ k o : Fin 64, x1 (ix2 k o) = W1 (ix2 k o))
    (ha : ∀ k o : Fin 64, a (ix3 0 k o) = W2 (ix3 0 k o))
    (hb : ∀ k o : Fin 64, b (ix3 0 k o) = W2 (ix3 1 k o))
    (hd : ∀ k o : Fin 64, d (ix3 0 k o) = W2 (ix3 2 k o))
    (h3 : ∀ k o : Fin 64, x3 (ix2 k o) = W3 (ix2 k o)) :
    lin (matT x3)
        (hidden (fun o k => d (ix3 0 k o))
          (hidden (fun o k => b (ix3 0 k o))
            (hidden (fun o k => a (ix3 0 k o))
              (hidden (matT x1) (fun k => x0 (ix2 p k)))))) q
      = GT X W1 W2 W3 (ix2 r q) := by
  have e0 : (fun k => x0 (ix2 p k)) = row X r := funext fun k => h0 k
  have e1 : matT x1 = matT W1 := funext fun o => funext fun k => h1 k o
  have ea : (fun o k => a (ix3 0 k o)) = matOfT W2 0 := funext fun o => funext fun k => ha k o
  have eb : (fun o k => b (ix3 0 k o)) = matOfT W2 1 := funext fun o => funext fun k => hb k o
  have ed : (fun o k => d (ix3 0 k o)) = matOfT W2 2 := funext fun o => funext fun k => hd k o
  have e3 : matT x3 = matT W3 := funext fun o => funext fun k => h3 k o
  rw [e0, e1, ea, eb, ed, e3]
  rfl

/-- What point t writes back is tile t of the array-level function of the arrays as the call finds them. -/
theorem flushed_eq (c : Dev nD) (t : Fin cfg0.N) :
    (dats m 0 c).flushed 4 t = ((cfg0.win 4).blk t).view.read (Elt Ideal)
      (GT (V m c main_arg0) (V m c main_v0) (V m c main_v1) (V m c main_v2)) := by
  rw [Cert.KernelIdeal.Value.flushed4 m c t]
  unfold out0_4
  rw [View.canon_unit_zero zero_off2]
  simp only [View.ld_unit_zero (S := S8192x64) zero_off2, View.ld_unit_zero (S := S64x64) zero_off2]
  obtain ⟨e00, e01, e10, e11, e20, e21, e22, e30, e31, e40, e41⟩ := idx_facts t
  have ht : t.val < 128 := lt_of_lt_of_eq t.isLt (show cfg0.N = 128 from N_0)
  funext j
  obtain ⟨p, q, rfl⟩ : ∃ (p : Fin 8192) (q : Fin 64), j = ix2 p q := ⟨j 0, j 1, eq_ix2 j⟩
  have hp : p.val < 8192 := p.isLt
  have hr : t.val * 8192 + p.val < 1048576 := by omega
  have he : ((cfg0.win 4).blk t).view.emb (ix2 p q) = ix2 (⟨t.val * 8192 + p.val, hr⟩ : Fin 1048576) q := by
    funext a; apply Fin.ext
    match a with
    | ⟨0, _⟩ => show win0_4.index t (0 : Fin 2) * 8192 + 1 * p.val = t.val * 8192 + p.val; omega
    | ⟨1, _⟩ => show win0_4.index t (1 : Fin 2) * 64 + 1 * q.val = q.val; omega
  show k0_pay1 (F := Ideal) (iblk m c 0 t) (iblk m c 1 t) (View.ld (iblk m c 2 t) r0_2) (View.ld (iblk m c 2 t) r0_3)
      (View.ld (iblk m c 2 t) r0_4) (iblk m c 3 t) (ix2 p q)
    = GT (V m c main_arg0) (V m c main_v0) (V m c main_v1) (V m c main_v2) (((cfg0.win 4).blk t).view.emb (ix2 p q))
  rw [he]
  refine (Row.pay_at (iblk m c 0 t) (iblk m c 1 t) (View.ld (iblk m c 2 t) r0_2) (View.ld (iblk m c 2 t) r0_3)
      (View.ld (iblk m c 2 t) r0_4) (iblk m c 3 t) p q).trans ?_
  refine tile_is_GT (V m c main_arg0) (V m c main_v0) (V m c main_v1) (V m c main_v2)
    (iblk m c 0 t) (iblk m c 1 t) (View.ld (iblk m c 2 t) r0_2) (View.ld (iblk m c 2 t) r0_3)
    (View.ld (iblk m c 2 t) r0_4) (iblk m c 3 t) p q ⟨t.val * 8192 + p.val, hr⟩ ?_ ?_ ?_ ?_ ?_ ?_
  · intro k
    show V m c main_arg0 (((cfg0.win 0).blk t).view.emb (ix2 p k)) = V m c main_arg0 _
    congr 1
    funext a; apply Fin.ext
    match a with
    | ⟨0, _⟩ => show win0_0.index t (0 : Fin 2) * 8192 + 1 * p.val = t.val * 8192 + p.val; omega
    | ⟨1, _⟩ => show win0_0.index t (1 : Fin 2) * 64 + 1 * k.val = k.val; omega
  · intro k o
    show V m c main_v0 (((cfg0.win 1).blk t).view.emb (ix2 k o)) = V m c main_v0 _
    congr 1
    funext a; apply Fin.ext
    match a with
    | ⟨0, _⟩ => show win0_1.index t (0 : Fin 2) * 64 + 1 * k.val = k.val; omega
    | ⟨1, _⟩ => show win0_1.index t (1 : Fin 2) * 64 + 1 * o.val = o.val; omega
  · intro k o
    show V m c main_v1 (((cfg0.win 2).blk t).view.emb (r0_2.idx (ix3 0 k o))) = V m c main_v1 _
    congr 1
    funext a; apply Fin.ext
    match a with
    | ⟨0, _⟩ => show win0_2.index t (0 : Fin 3) * 3 + 1 * (0 + 1 * 0) = 0; omega
    | ⟨1, _⟩ => show win0_2.index t (1 : Fin 3) * 64 + 1 * (0 + 1 * k.val) = k.val; omega
    | ⟨2, _⟩ => show win0_2.index t (2 : Fin 3) * 64 + 1 * (0 + 1 * o.val) = o.val; omega
  · intro k o
    show V m c main_v1 (((cfg0.win 2).blk t).view.emb (r0_3.idx (ix3 0 k o))) = V m c main_v1 _
    congr 1
    funext a; apply Fin.ext
    match a with
    | ⟨0, _⟩ => show win0_2.index t (0 : Fin 3) * 3 + 1 * (1 + 1 * 0) = 1; omega
    | ⟨1, _⟩ => show win0_2.index t (1 : Fin 3) * 64 + 1 * (0 + 1 * k.val) = k.val; omega
    | ⟨2, _⟩ => show win0_2.index t (2 : Fin 3) * 64 + 1 * (0 + 1 * o.val) = o.val; omega
  · intro k o
    show V m c main_v1 (((cfg0.win 2).blk t).view.emb (r0_4.idx (ix3 0 k o))) = V m c main_v1 _
    congr 1
    funext a; apply Fin.ext
    match a with
    | ⟨0, _⟩ => show win0_2.index t (0 : Fin 3) * 3 + 1 * (2 + 1 * 0) = 2; omega
    | ⟨1, _⟩ => show win0_2.index t (1 : Fin 3) * 64 + 1 * (0 + 1 * k.val) = k.val; omega
    | ⟨2, _⟩ => show win0_2.index t (2 : Fin 3) * 64 + 1 * (0 + 1 * o.val) = o.val; omega
  · intro k o
    show V m c main_v2 (((cfg0.win 3).blk t).view.emb (ix2 k o)) = V m c main_v2 _
    congr 1
    funext a; apply Fin.ext
    match a with
    | ⟨0, _⟩ => show win0_3.index t (0 : Fin 2) * 64 + 1 * k.val = k.val; omega
    | ⟨1, _⟩ => show win0_3.index t (1 : Fin 2) * 64 + 1 * o.val = o.val; omega

/-- Every entry of the result array lies in the tile of the point its row number divided by 8192 names. -/
theorem cover (i : S1048576x64.Idx) :
    ∃ t : Fin cfg0.N, (cfg0.win 4).flush t = true ∧ i ∈ ((cfg0.win 4).blk t).view.set := by
  have hi0 : (i 0).val < 1048576 := (i 0).isLt
  have hi1 : (i 1).val < 64 := (i 1).isLt
  have hN : cfg0.N = 128 := N_0
  have hlt : (i 0).val / 8192 < cfg0.N := by rw [hN]; omega
  obtain ⟨-, -, -, -, -, -, -, -, -, e40, e41⟩ := idx_facts ⟨(i 0).val / 8192, hlt⟩
  refine ⟨⟨(i 0).val / 8192, hlt⟩, flush0_4 _, ?_⟩
  show i ∈ ((View.whole main_v3).slice (win0_4.rect ⟨(i 0).val / 8192, hlt⟩)).set
  rw [View.set_slice_whole, Rect.mem_set_unit]
  intro a
  match a with
  | ⟨0, _⟩ =>
    show win0_4.index ⟨(i 0).val / 8192, hlt⟩ (0 : Fin 2) * 8192 ≤ (i 0).val
      ∧ (i 0).val < win0_4.index ⟨(i 0).val / 8192, hlt⟩ (0 : Fin 2) * 8192 + 8192
    rw [e40]
    show (i 0).val / 8192 * 8192 ≤ (i 0).val ∧ (i 0).val < (i 0).val / 8192 * 8192 + 8192
    omega
  | ⟨1, _⟩ =>
    show win0_4.index ⟨(i 0).val / 8192, hlt⟩ (1 : Fin 2) * 64 ≤ (i 1).val
      ∧ (i 1).val < win0_4.index ⟨(i 0).val / 8192, hlt⟩ (1 : Fin 2) * 64 + 64
    omega

/-! ## The operands are the transposed weights -/

theorem V_v0 (c : Dev nD) : (V m c main_v0 : S64x64.Idx → EReal)
    = transpose S64x64 [1, 0] (m ((c : Thread nD τ).loc main_arg1)) transposes_S64x64_S64x64_1_0 := by
  dsimp only [V, hostOps0]; after_results <;> rfl

theorem V_v1 (c : Dev nD) : (V m c main_v1 : S3x64x64.Idx → EReal)
    = transpose S3x64x64 [0, 2, 1] (m ((c : Thread nD τ).loc main_arg2)) transposes_S3x64x64_S3x64x64_0_2_1 := by
  dsimp only [V, hostOps0]; after_results <;> rfl

theorem V_v2 (c : Dev nD) : (V m c main_v2 : S64x64.Idx → EReal)
    = transpose S64x64 [1, 0] (m ((c : Thread nD τ).loc main_arg3)) transposes_S64x64_S64x64_1_0 := by
  dsimp only [V, hostOps0]; after_results <;> rfl

/-- A transposed matrix at (k, o) is the matrix at (o, k). -/
theorem transpose_at (w : S64x64.Idx → EReal) (o k : Fin 64) :
    transpose S64x64 [1, 0] w transposes_S64x64_S64x64_1_0 (ix2 k o) = w (ix2 o k) :=
  transpose_apply [1, 0] w transposes_S64x64_S64x64_1_0 (ix2 k o) (ix2 o k)
    (fun b => by match b with | ⟨0, _⟩ => rfl | ⟨1, _⟩ => rfl)

/-- The stack with its last two axes exchanged, at (l, k, o), is the stack at (l, o, k). -/
theorem transpose_stack_at (w : S3x64x64.Idx → EReal) (l : Fin 3) (o k : Fin 64) :
    transpose S3x64x64 [0, 2, 1] w transposes_S3x64x64_S3x64x64_0_2_1 (ix3 l k o) = w (ix3 l o k) :=
  transpose_apply [0, 2, 1] w transposes_S3x64x64_S3x64x64_0_2_1 (ix3 l k o) (ix3 l o k)
    (fun b => by match b with | ⟨0, _⟩ => rfl | ⟨1, _⟩ => rfl | ⟨2, _⟩ => rfl)

/-- The result array after the run: the network, weights as given, applied to every row of the batch. -/
theorem final (c : Dev nD) : (dats m 0 c).arrAt 4 cfg0.N
    = G (m ((c : Thread nD τ).loc main_arg0)) (m ((c : Thread nD τ).loc main_arg1))
        (m ((c : Thread nD τ).loc main_arg2)) (m ((c : Thread nD τ).loc main_arg3)) := by
  rw [(dats m 0 c).arrAt_eq_of_cover 4
    (GT (V m c main_arg0) (V m c main_v0) (V m c main_v1) (V m c main_v2))
    (fun t _ => flushed_eq m c t) cover]
  rw [V_main_arg0 m c]
  refine GT_eq_G _ _ _ _ _ _ _ ?_ ?_ ?_
  · intro o k; rw [V_v0]; exact transpose_at _ o k
  · intro l o k; rw [V_v1]; exact transpose_stack_at _ l o k
  · intro o k; rw [V_v2]; exact transpose_at _ o k

/-- The kernel's run, read: the result array at the network of the arguments, the arguments unchanged. -/
theorem run : θ_run defs (onTc (τ := τ) (main (F := Ideal))) ⟨m, fun _ => 0, ρ⟩ fun r => ∀ c : Dev nD,
      r.2.mem ((c : Thread nD τ).loc main_v3)
        = G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Whole

end
-- ==== Proof.lean ====
/-
  A narrow fused multilayer perceptron against its plain description.

  Both programs send every row x of a batch of 1048576 rows of 64 numbers through

      h₁ = max(W_in x, 0),  h₂ = max(W₀ h₁, 0),  h₃ = max(W₁ h₂, 0),  h₄ = max(W₂ h₃, 0),  out = W_out h₄,

  all five matrices 64 by 64 and stored out-feature-major, so that entry o of `W h` is `∑ k, h k * W o k`. The
  reference writes each product as a contraction of the second axes of the activations and of the weight matrix.
  The kernel transposes the weights once, ahead of the call, walks the batch in 128 tiles of 8192 rows with the
  weights resident, and on each tile multiplies activations by the transposed weights with the second axis of the
  one against the first of the other: the same sums term by term, in the same order. Over the extended reals the
  narrowing of the factors ahead of a product changes nothing, a product into a zero accumulator is the bare sum,
  and the maximum with the zero constant is the same operation on both sides. No law of arithmetic beyond reading
  both sides as that one function of the arguments is used, so the inputs' finiteness is never opened.

  The pieces: the function itself (Proof/MlpSpec.lean); the reference's result is it (Proof/RefIsMlp.lean); the
  kernel's body computes it on a tile's rows (Proof/KernelRow.lean); the tiles cover the result array and the
  operands are the transposed weights (Proof/KernelWhole.lean). The three frames are the generated ones, the
  reference's being its run with the result dropped, and the idealization rewrote nothing.
-/
import proofs.«173376_j59390807769684_1_alg».proof.Defs
import proofs.«173376_j59390807769684_1_alg».proof.Proof.Gen.Kernel
import proofs.«173376_j59390807769684_1_alg».proof.Proof.Gen.Kernel.Skeleton
import proofs.«173376_j59390807769684_1_alg».proof.Proof.Gen.Kernel.Launch
import proofs.«173376_j59390807769684_1_alg».proof.Proof.Gen.Kernel.Points
import proofs.«173376_j59390807769684_1_alg».proof.Proof.Gen.Kernel.Frame
import proofs.«173376_j59390807769684_1_alg».proof.Proof.Gen.KernelIdeal
import proofs.«173376_j59390807769684_1_alg».proof.Proof.Gen.KernelIdeal.Skeleton
import proofs.«173376_j59390807769684_1_alg».proof.Proof.Gen.KernelIdeal.Launch
import proofs.«173376_j59390807769684_1_alg».proof.Proof.Gen.KernelIdeal.Points
import proofs.«173376_j59390807769684_1_alg».proof.Proof.Gen.KernelIdeal.Frame
import proofs.«173376_j59390807769684_1_alg».proof.Proof.Gen.ReferenceIdeal
import proofs.«173376_j59390807769684_1_alg».proof.Proof.Gen.Pre_finite_inputs
import proofs.«173376_j59390807769684_1_alg».proof.Proof.Gen.KernelIdeal.Value
import proofs.«173376_j59390807769684_1_alg».proof.Proof.Gen.ReferenceIdeal.Run
import proofs.«173376_j59390807769684_1_alg».proof.Proof.Gen.ReferenceIdeal.Read
import proofs.«173376_j59390807769684_1_alg».proof.Proof.RefIsMlp
import proofs.«173376_j59390807769684_1_alg».proof.Proof.KernelWhole
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both result arrays are the network applied to every row of the batch, of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.IsMlp.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
